-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  main_v53

def fn_part2 {F : FTy → Type} [FloatOps F] (main_arg9 : FVec F S128 .f32) (main_arg10 : FVec F S128x1 .f32) (main_arg11 : FVec F S1 .f32) (main_arg12 : FVec F S1x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x1 .f32 := Host.absf main_arg12
  let main_cst_18 : FVec F S_ .f32 := constant S_ .f32 0x7F800000#32
  let main_v50 : FVec F S1x1 .f32 := broadcastInDim S1x1 ![] bcast_S_S1x1 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x1 .f32) (main_arg11 : FVec F S1 .f32) (main_arg12 : FVec F S1x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : IVec S50000 32) (main_arg1 : IVec S2x1600000 32) (main_arg2 : FVec F S50000x128 .f32) (main_arg3 : FVec F S50000x128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x1 .f32) (main_arg11 : FVec F S1 .f32) (main_arg12 : FVec F S1x1 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩
abbrev S50000x1 : Shape := ⟨2, ![50000, 1]⟩

abbrev nBuf : Space → Nat
  | .hbm => 96
  | .vmem => 20
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x128, .f32⟩
  | .hbm, ⟨3, _⟩ => ⟨S50000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x1, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S1x1, .f32⟩
  | .hbm, ⟨67, _⟩ => ⟨S100000x1, .f32⟩
  | .hbm, ⟨68, _⟩ => ⟨S_, .i32⟩
  | .hbm, ⟨69, _⟩ => ⟨S50000, .i32⟩
  | .hbm, ⟨70, _⟩ => ⟨S50000, .i1⟩
  | .hbm, ⟨71, _⟩ => ⟨S_, .i32⟩
  | .hbm, ⟨72, _⟩ => ⟨S50000, .i32⟩
  | .hbm, ⟨73, _⟩ => ⟨S50000, .i32⟩
  | .hbm, ⟨74, _⟩ => ⟨S50000, .i32⟩
  | .hbm, ⟨75, _⟩ => ⟨S50000x1, .i32⟩
  | .hbm, ⟨76, _⟩ => ⟨S50000x1, .f32⟩
  | .hbm, ⟨77, _⟩ => ⟨S_, .f32⟩
  | .hbm, ⟨78, _⟩ => ⟨S1x1, .f32⟩
  | .hbm, ⟨79, _⟩ => ⟨S1x1, .f32⟩
  | .hbm, ⟨80, _⟩ => ⟨S_, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S1x1, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S_, .f32⟩
  | .hbm, ⟨90, _⟩ => ⟨S1, .f32⟩
  | .hbm, ⟨91, _⟩ => ⟨S1x1, .f32⟩
  | .hbm, ⟨92, _⟩ => ⟨S50000x1, .f32⟩
  | .hbm, ⟨93, _⟩ => ⟨S50000x1, .f32⟩
  | .hbm, ⟨94, _⟩ => ⟨S50000x1, .f32⟩
  | .hbm, ⟨95, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call0_cst : Ref sig .tc := ⟨.hbm, 77, rfl⟩
abbrev main_call0_v0 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S128x1_S1x128_1_0 : S128x1.Transposes [1, 0] S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S50000 : S_.BroadcastsInDim S50000 (![] : Fin 0 → Fin S50000.rank)
  bcast_S50000_S50000x1_0 : S50000.BroadcastsInDim S50000x1 (![0] : Fin 1 → Fin S50000x1.rank)
  bcast_S_S1x1 : S_.BroadcastsInDim S1x1 (![] : Fin 0 → Fin S1x1.rank)
  reducesTo_S50000x1_S1_d0 : S50000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x1_S50000x1_S50000x1_1_0_n_n_0_1_11_wf : GatherDims.WF S100000x1 S50000x1 S50000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x1_S50000x1_S50000x1_1_0_n_n_0_1_11 : GatherDims S100000x1 S50000x1 S50000x1 where
  offsetDims := [1]
  collapsedSliceDims := [0]
  operandBatchingDims := []
  startIndicesBatchingDims := []
  startIndexMap := [0]
  indexVectorDim := 1
  sliceSizes := ![1, 1]
  wf := gather_S100000x1_S50000x1_S50000x1_1_0_n_n_0_1_11_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000 : Shape := ⟨1, ![50000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x128, .f32⟩
  | .hbm, ⟨3, _⟩ => ⟨S50000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x1, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .hbm, ⟨78, _⟩ => ⟨S_, .i32⟩
  | .hbm, ⟨79, _⟩ => ⟨S50000, .i32⟩
  | .hbm, ⟨80, _⟩ => ⟨S50000, .i1⟩
  | .hbm, ⟨81, _⟩ => ⟨S_, .i32⟩
  | .hbm, ⟨82, _⟩ => ⟨S50000, .i32⟩
  | .hbm, ⟨83, _⟩ => ⟨S50000, .i32⟩
  | .hbm, ⟨84, _⟩ => ⟨S50000, .i32⟩
  | .hbm, ⟨85, _⟩ => ⟨S50000x1, .i32⟩
  | .hbm, ⟨86, _⟩ => ⟨S50000x1, .f32⟩
  | .hbm, ⟨87, _⟩ => ⟨S_, .f32⟩
  | .hbm, ⟨88, _⟩ => ⟨S1x1, .f32⟩
  | .hbm, ⟨89, _⟩ => ⟨S1x1, .f32⟩
  | .hbm, ⟨90, _⟩ => ⟨S_, .f32⟩
  | .hbm, ⟨91, _⟩ => ⟨S1, .f32⟩
  | .hbm, ⟨92, _⟩ => ⟨S_, .f32⟩
  | .hbm, ⟨93, _⟩ => ⟨S1, .f32⟩
  | .hbm, ⟨94, _⟩ => ⟨S1, .f32⟩
  | .hbm, ⟨95, _⟩ => ⟨S1x1, .f32⟩
  | .hbm, ⟨96, _⟩ => ⟨S50000x1, .f32⟩
  | .hbm, ⟨97, _⟩ => ⟨S50000x1, .f32⟩
  | .hbm, ⟨98, _⟩ => ⟨S50000x1, .f32⟩
  | .hbm, ⟨99, _⟩ => ⟨S_, .f32⟩
  | .hbm, ⟨100, _⟩ => ⟨S1, .f32⟩
  | .hbm, ⟨101, _⟩ => ⟨S1x1, .f32⟩
  | .hbm, ⟨102, _⟩ => ⟨S50000x1, .f32⟩
  | .hbm, ⟨103, _⟩ => ⟨S50000x1, .f32⟩
  | .hbm, ⟨104, _⟩ => ⟨S50000x1, .f32⟩
  | .hbm, ⟨105, _⟩ => ⟨S50000x1, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call0_cst : Ref sig .tc := ⟨.hbm, 87, rfl⟩
abbrev main_call0_v0 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S1x1 : S_.BroadcastsInDim S1x1 (![] : Fin 0 → Fin S1x1.rank)
  reducesTo_S50000x1_S1_d0 : S50000x1.ReducesTo [0] S1
  h_S_ : 0 < S_.numel
  bcast_S_S1 : S_.BroadcastsInDim S1 (![] : Fin 0 → Fin S1.rank)
  bcast_S1x1_S50000x1_0_1 : S1x1.BroadcastsInDim S50000x1 (![0, 1] : Fin 2 → Fin S50000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S50000x1_S50000x1_1_0_n_n_0_1_11_wf : GatherDims.WF S100000x1 S50000x1 S50000x1 [1] [0] [] [0] [] 1 ![1, 1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S50000x1_S50000x1_1_0_n_n_0_1_11 : GatherDims S100000x1 S50000x1 S50000x1 where
  offsetDims := [1]
  collapsedSliceDims := [0]
  operandBatchingDims := []
  startIndicesBatchingDims := []
  startIndexMap := [0]
  indexVectorDim := 1
  sliceSizes := ![1, 1]
  wf := gather_S100000x1_S50000x1_S50000x1_1_0_n_n_0_1_11_wf

class Facts : Prop extends Facts₀ where

variable [Facts]
-- ==== Proof.Stages.lean ====
/-
  The host side of the model as functions of arrays, so that the program with the two kernel calls and the reference
  program can be compared stretch by stretch:

    aggOf y e    the mean over incoming edges of the rows of y: rows of y gathered at the edges' sources, summed
                 into the edges' targets, each row then scaled by 1 / max(in-degree, 1);
    layerH a x Wl Wr b   = a · Wl + x · Wr + b        (the reference's two products, sum and bias);
    headH y w c          = y · w + c                   (the reference's last product and bias);
    tailOf s item prior  the scores s gathered at the item nodes, a softmax over the 50000 items, times max(prior, 0).

  The reference's generated stages are these functions of one another by unfolding; nothing in this file is arithmetic.
-/
import proofs.«180501_j20401094656118_1_alg».proof.Proof.Gen.ReferenceIdeal.Read

noncomputable section

namespace Cert.Sage

open Idealize.ShloMosaic Cert.ReferenceIdeal Cert.ReferenceIdeal.Gen Cert.ReferenceIdeal.Read

variable {F : FTy → Type} [FloatOps F]

/-- The mean of the rows of `y` over each node's incoming edges (`e` the 2 × 1600000 edge list). -/
def aggOf (y : (⟨S100000x128, .f32⟩ : BufTy).Contents (Elt F)) (e : (⟨S2x1600000, .i32⟩ : BufTy).Contents (Elt F)) : (⟨S100000x128, .f32⟩ : BufTy).Contents (Elt F) :=
  mulf (Host.scatterAdd scatter_S100000x128_S1600000x1_S1600000x128_1_0_0_1 (val_main_v39 (F := F)) (val_main_v40 (F := F) e)
      (Host.gather gather_S100000x128_S1600000x1_S1600000x128_1_0_n_n_0_1_1128 y (val_main_v37 (F := F) e)))
    (val_main_v43 (F := F) e)

/-- One layer as the reference computes it. -/
def layerH (a x : (⟨S100000x128, .f32⟩ : BufTy).Contents (Elt F)) (wl wr : (⟨S128x128, .f32⟩ : BufTy).Contents (Elt F)) (b : (⟨S128, .f32⟩ : BufTy).Contents (Elt F)) : (⟨S100000x128, .f32⟩ : BufTy).Contents (Elt F) :=
  addf (addf (Host.dotGeneral dot_S100000x128_S128x128_S100000x128_1_0_0_1_n_n none a wl)
      (Host.dotGeneral dot_S100000x128_S128x128_S100000x128_1_0_0_1_n_n none x wr))
    (broadcastInDim S100000x128 ![0, 1] bcast_S1x128_S100000x128_0_1 (broadcastInDim S1x128 ![1] bcast_S128_S1x128_1 b))

/-- The head as the reference computes it. -/
def headH (y : (⟨S100000x128, .f32⟩ : BufTy).Contents (Elt F)) (w : (⟨S128x1, .f32⟩ : BufTy).Contents (Elt F)) (c : (⟨S1, .f32⟩ : BufTy).Contents (Elt F)) : (⟨S100000x1, .f32⟩ : BufTy).Contents (Elt F) :=
  addf (Host.dotGeneral dot_S100000x128_S128x1_S100000x1_1_0_0_1_n_n none y w)
    (broadcastInDim S100000x1 ![0, 1] bcast_S1x1_S100000x1_0_1 (broadcastInDim S1x1 ![1] bcast_S1_S1x1_1 c))

/-- The items' scores, their softmax over the items, scaled by the clamped prior. -/
def tailOf (s : (⟨S100000x1, .f32⟩ : BufTy).Contents (Elt F)) (item : (⟨S50000, .i32⟩ : BufTy).Contents (Elt F)) (prior : (⟨S1x1, .f32⟩ : BufTy).Contents (Elt F)) : (⟨S50000x1, .f32⟩ : BufTy).Contents (Elt F) :=
  have g : (⟨S50000x1, .f32⟩ : BufTy).Contents (Elt F) := Host.gather gather_S100000x1_S50000x1_S50000x1_1_0_n_n_0_1_11 s (val_main_v60 (F := F) item)
  have mx : (⟨S1, .f32⟩ : BufTy).Contents (Elt F) := maximumf (val_main_v64 (F := F)) (Host.reduce FloatOps.maximumf g (val_main_cst_10 (F := F)) reducesTo_S50000x1_S1_d0 h_S_)
  have ex : (⟨S50000x1, .f32⟩ : BufTy).Contents (Elt F) := Host.exp (subf g (broadcastInDim S50000x1 ![0, 1] bcast_S1x1_S50000x1_0_1 (broadcastInDim S1x1 ![1] bcast_S1_S1x1_1 mx)))
  have sm : (⟨S1, .f32⟩ : BufTy).Contents (Elt F) := Host.reduceAdd ex (val_main_cst_12 (F := F)) reducesTo_S50000x1_S1_d0 h_S_
  mulf (val_main_v74 (F := F) prior)
    (Host.divf ex (broadcastInDim S50000x1 ![0, 1] bcast_S1x1_S50000x1_0_1 (broadcastInDim S1x1 ![1] bcast_S1_S1x1_1 sm)))

section Stages
variable (x0 : (⟨S50000, .i32⟩ : BufTy).Contents (Elt F)) (x1 : (⟨S2x1600000, .i32⟩ : BufTy).Contents (Elt F)) (x2 x3 : (⟨S50000x128, .f32⟩ : BufTy).Contents (Elt F))
  (x4 x5 : (⟨S128x128, .f32⟩ : BufTy).Contents (Elt F)) (x6 : (⟨S128, .f32⟩ : BufTy).Contents (Elt F)) (x7 x8 : (⟨S128x128, .f32⟩ : BufTy).Contents (Elt F)) (x9 : (⟨S128, .f32⟩ : BufTy).Contents (Elt F))
  (x10 : (⟨S128x1, .f32⟩ : BufTy).Contents (Elt F)) (x11 : (⟨S1, .f32⟩ : BufTy).Contents (Elt F)) (x12 : (⟨S1x1, .f32⟩ : BufTy).Contents (Elt F))

/-- The first aggregate is the mean of the concatenated embeddings' rows. -/
theorem agg1_eq : val_main_v25 (F := F) x1 x2 x3 = aggOf (val_main_v0 (F := F) x2 x3) x1 := rfl
/-- The first layer's output. -/
theorem layer1_eq : val_main_v31 (F := F) x1 x2 x3 x4 x5 x6 = layerH (val_main_v25 (F := F) x1 x2 x3) (val_main_v0 (F := F) x2 x3) x4 x5 x6 := rfl
/-- The second aggregate is the mean of the first layer's rows. -/
theorem agg2_eq : val_main_v44 (F := F) x1 x2 x3 x4 x5 x6 = aggOf (val_main_v31 (F := F) x1 x2 x3 x4 x5 x6) x1 := rfl
/-- The second layer's output. -/
theorem layer2_eq : val_main_v50 (F := F) x1 x2 x3 x4 x5 x6 x7 x8 x9
    = layerH (val_main_v44 (F := F) x1 x2 x3 x4 x5 x6) (val_main_v31 (F := F) x1 x2 x3 x4 x5 x6) x7 x8 x9 := rfl
/-- The scores of all nodes. -/
theorem head_eq : val_main_v54 (F := F) x1 x2 x3 x4 x5 x6 x7 x8 x9 x10 x11 = headH (val_main_v50 (F := F) x1 x2 x3 x4 x5 x6 x7 x8 x9) x10 x11 := rfl
/-- The result. -/
theorem tail_eq : val_main_v75 (F := F) x0 x1 x2 x3 x4 x5 x6 x7 x8 x9 x10 x11 x12
    = tailOf (val_main_v54 (F := F) x1 x2 x3 x4 x5 x6 x7 x8 x9 x10 x11) x0 x12 := rfl

end Stages

end Cert.Sage

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Layer.lean ====
/-
  The arithmetic of one graph-convolution layer and of the linear head, read entry by entry on the extended reals.

  A layer sends a matrix of aggregated neighbour features `a` and a matrix of node features `x` (both 100000 × 128)
  to `a · Wl + x · Wr + b`: entry (p, q) is  (Σ_k a[p,k]·Wl[k,q] + Σ_k x[p,k]·Wr[k,q]) + b[q].
  The head sends a 100000 × 128 matrix `y` to `y · w + c` (a column): entry (p, 0) is  Σ_k y[p,k]·w[k,0] + c[0].

  The host programs compute both with `dot_general`; the kernel bodies compute, on a 5000-row block, the same sums with
  a matrix product into a zero accumulator (the conversion to bf16 before it is the identity on exact values), and the
  head as a lane sum of the row times `w` laid out as a row.  Sums over a contraction axis are finite sums in a
  commutative monoid, so no finiteness of the inputs is needed anywhere.
-/
import proofs.«180501_j20401094656118_1_alg».proof.KernelIdeal
import proofs.«180501_j20401094656118_1_alg».proof.ReferenceIdeal
import proofs.«180501_j20401094656118_1_alg».proof.Proof.Gen.KernelIdeal.Skeleton
import proofs.«180501_j20401094656118_1_alg».proof.Proof.Gen.ReferenceIdeal
import proofs.«180501_j20401094656118_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx

/-! ## The host's products at an entry -/

section HostSquare
open Cert.ReferenceIdeal

theorem hostSq_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem hostSq_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem hostSq_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem hostSq_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A 100000 × 128 matrix times a 128 × 128 one on the host: entry (p, q) is the sum over k of l[p,k] · r[k,q]. -/
theorem hostSq_apply (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact hostSq_lhs_0 _ _
    | ⟨1, _⟩ => exact (hostSq_lhs_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (hostSq_rhs_0 _ _).trans hk
    | ⟨1, _⟩ => exact hostSq_rhs_1 _ _)
  rw [el, er]

theorem hostCol_lhs_0 (i : S100000x1.Idx) (q : dot_S100000x128_S128x1_S100000x1_1_0_0_1_n_n.contr.Idx) :
    (dot_S100000x128_S128x1_S100000x1_1_0_0_1_n_n.lhsIdx i q 0).val = (i 0).val := by
  unfold DotDims.lhsIdx
  rw [dif_neg (show ¬(0 : Fin S100000x128.rank) ∈ dot_S100000x128_S128x1_S100000x1_1_0_0_1_n_n.lhsBatch by decide), dif_pos (show (0 : Fin S100000x128.rank) ∈ dot_S100000x128_S128x1_S100000x1_1_0_0_1_n_n.lhsNonContracting by decide)]
  rfl
theorem hostCol_lhs_1 (i : S100000x1.Idx) (q : dot_S100000x128_S128x1_S100000x1_1_0_0_1_n_n.contr.Idx) :
    (dot_S100000x128_S128x1_S100000x1_1_0_0_1_n_n.lhsIdx i q 1).val = (q ⟨0, by decide⟩).val :=
  dot_S100000x128_S128x1_S100000x1_1_0_0_1_n_n.lhsIdx_val_of_single rfl i q
theorem hostCol_rhs_0 (i : S100000x1.Idx) (q : dot_S100000x128_S128x1_S100000x1_1_0_0_1_n_n.contr.Idx) :
    (dot_S100000x128_S128x1_S100000x1_1_0_0_1_n_n.rhsIdx i q 0).val = (q ⟨0, by decide⟩).val :=
  dot_S100000x128_S128x1_S100000x1_1_0_0_1_n_n.rhsIdx_val_of_single rfl i q
theorem hostCol_rhs_1 (i : S100000x1.Idx) (q : dot_S100000x128_S128x1_S100000x1_1_0_0_1_n_n.contr.Idx) :
    (dot_S100000x128_S128x1_S100000x1_1_0_0_1_n_n.rhsIdx i q 1).val = (i 1).val := by
  unfold DotDims.rhsIdx
  rw [dif_neg (show ¬(1 : Fin S128x1.rank) ∈ dot_S100000x128_S128x1_S100000x1_1_0_0_1_n_n.rhsBatch by decide), dif_pos (show (1 : Fin S128x1.rank) ∈ dot_S100000x128_S128x1_S100000x1_1_0_0_1_n_n.rhsNonContracting by decide)]
  rfl

/-- A 100000 × 128 matrix times a 128 × 1 column on the host: entry (p, u) is the sum over k of l[p,k] · r[k,u]. -/
theorem hostCol_apply (l : FVec Ideal S100000x128 .f32) (r : FVec Ideal S128x1 .f32) (p : Fin 100000) (u : Fin 1) :
    Host.dotGeneral dot_S100000x128_S128x1_S100000x1_1_0_0_1_n_n none l r (ix2 p u) = ∑ k : Fin 128, l (ix2 p k) * r (ix2 k u) := by
  simp only [Host.dotGeneral]
  rw [Ideal.dotGeneral_apply, ← Equiv.sum_comp (contrEquiv1 dot_S100000x128_S128x1_S100000x1_1_0_0_1_n_n 128 rfl rfl).symm]
  refine Finset.sum_congr rfl fun k _ => ?_
  have hk := contrEquiv1_symm_val dot_S100000x128_S128x1_S100000x1_1_0_0_1_n_n 128 rfl rfl k
  have el : dot_S100000x128_S128x1_S100000x1_1_0_0_1_n_n.lhsIdx (ix2 p u) ((contrEquiv1 dot_S100000x128_S128x1_S100000x1_1_0_0_1_n_n 128 rfl rfl).symm k) = ix2 p k := funext fun a => Fin.ext (by
    match a with
    | ⟨0, _⟩ => exact hostCol_lhs_0 _ _
    | ⟨1, _⟩ => exact (hostCol_lhs_1 _ _).trans hk)
  have er : dot_S100000x128_S128x1_S100000x1_1_0_0_1_n_n.rhsIdx (ix2 p u) ((contrEquiv1 dot_S100000x128_S128x1_S100000x1_1_0_0_1_n_n 128 rfl rfl).symm k) = ix2 k u := funext fun a => Fin.ext (by
    match a with
    | ⟨0, _⟩ => exact (hostCol_rhs_0 _ _).trans hk
    | ⟨1, _⟩ => exact hostCol_rhs_1 _ _)
  rw [el, er]

end HostSquare

/-! ## The kernel's product of a 5000-row block at an entry -/

section Block
open Cert.KernelIdeal Cert.KernelIdeal.Gen

theorem blk_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blk_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blk_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into the zero accumulator: entry (p, q) is the sum over k of l[p,k] · r[k,q]. -/
theorem blk_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er]

/-- What the first kernel stores for a block, at (p, q): the layer's entry from the block's rows. -/
theorem pay0_apply (a x : Vec Ideal S5000x128 .f32) (wl wr : Vec Ideal S128x128 .f32) (b : Vec Ideal S1x128 .f32) (p : Fin 5000) (q : Fin 128) :
    k0_pay1 (F := Ideal) a x wl wr b (ix2 p q)
      = (∑ k : Fin 128, a (ix2 p k) * wl (ix2 k q) + ∑ k : Fin 128, x (ix2 p k) * wr (ix2 k q)) + b (ix2 (0 : Fin 1) q) := by
  unfold k0_pay1
  simp only [addf_apply, shapeCast_self, blk_apply, broadcastTo_1b_ab_apply, truncf_apply]

/-- A sum along the 128 lanes of a 5000 × 128 block, read at row p. -/
theorem laneSum_apply (src : FVec Ideal S5000x128 .f32) (hφ : FKind.Formats .f32)
    (hacc : (0x00000000#32 : BitVec FTy.f32.bits) = FKind.add.neutral .f32 hφ) (p : Fin 5000) :
    multiReduction .add [1] S5000 src 0x00000000#32 reduces_S5000x128_S5000 hφ hacc (ix1 p) = ∑ k : Fin 128, src (ix2 p k) := by
  refine (Ideal.multiReduction_add_single src 0x00000000#32 reduces_S5000x128_S5000 hφ hacc (ix1 p)).trans ?_
  refine Finset.sum_congr rfl fun k _ => congrArg src ?_
  funext a
  match a with
  | ⟨0, _⟩ => rfl
  | ⟨1, _⟩ => rfl

/-- What the second kernel stores for a block, at (p, 0): the head's entry of the second layer's row p, the head's
    weights laid out as a row. -/
theorem pay1_apply (a x : Vec Ideal S5000x128 .f32) (wl wr : Vec Ideal S128x128 .f32) (b wo : Vec Ideal S1x128 .f32)
    (bo : Vec Ideal S1x1 .f32) (p : Fin 5000) (u : Fin 1) :
    k1_pay1 (F := Ideal) a x wl wr b wo bo (ix2 p u)
      = (∑ j : Fin 128, ((∑ k : Fin 128, a (ix2 p k) * wl (ix2 k j) + ∑ k : Fin 128, x (ix2 p k) * wr (ix2 k j)) + b (ix2 (0 : Fin 1) j))
            * wo (ix2 (0 : Fin 1) j)) + bo (ix2 (0 : Fin 1) u) := by
  unfold k1_pay1
  dsimp only
  refine (addf_apply _ _ _).trans ?_
  refine congrArg₂ (· + ·) ?_ ?_
  · refine (Cert.LibKeepdims.shapeCast_a_a1_apply _ _ p u).trans ?_
    refine (laneSum_apply _ _ _ p).trans ?_
    refine Finset.sum_congr rfl fun j _ => ?_
    simp only [mulf_apply, addf_apply, shapeCast_self, blk_apply, broadcastTo_1b_ab_apply, truncf_apply]
  · simp only [shapeCast_self, broadcastTo_1b_ab_apply]

end Block

/-! ## The two maps as functions of whole arrays, entry by entry -/

section Whole
open Cert.KernelIdeal

/-- The row and the column of an entry of a 100000 × 128 array, and the row of an entry of a 100000 × 1 column. -/
def rowI (i : S100000x128.Idx) : Fin 100000 := ⟨(i 0).val, (i 0).isLt⟩
def colI (i : S100000x128.Idx) : Fin 128 := ⟨(i 1).val, (i 1).isLt⟩
def rowC (i : S100000x1.Idx) : Fin 100000 := ⟨(i 0).val, (i 0).isLt⟩
def colC (i : S100000x1.Idx) : Fin 1 := ⟨(i 1).val, (i 1).isLt⟩

/-- One layer: entry (p, q) of `a · wl + x · wr + b`, the bias given as a 1 × 128 row. -/
def layerFn (a x : S100000x128.Idx → EReal) (wl wr : S128x128.Idx → EReal) (b : S1x128.Idx → EReal) : S100000x128.Idx → EReal :=
  fun i => (∑ k : Fin 128, a (ix2 (rowI i) k) * wl (ix2 k (colI i)) + ∑ k : Fin 128, x (ix2 (rowI i) k) * wr (ix2 k (colI i)))
    + b (ix2 (0 : Fin 1) (colI i))

/-- The head applied to a layer: entry (p, 0) of `(a · wl + x · wr + b) · woᵀ + bo`, the head's weights given as a
    1 × 128 row and its bias as a 1 × 1 array. -/
def headFn (a x : S100000x128.Idx → EReal) (wl wr : S128x128.Idx → EReal) (b wo : S1x128.Idx → EReal) (bo : S1x1.Idx → EReal) :
    S100000x1.Idx → EReal :=
  fun i => (∑ j : Fin 128, ((∑ k : Fin 128, a (ix2 (rowC i) k) * wl (ix2 k j) + ∑ k : Fin 128, x (ix2 (rowC i) k) * wr (ix2 k j))
      + b (ix2 (0 : Fin 1) j)) * wo (ix2 (0 : Fin 1) j)) + bo (ix2 (0 : Fin 1) (colC i))

end Whole

end Cert.Sage

end
-- ==== Proof.Bridge.lean ====
/-
  The kernels' entry-by-entry forms of a layer and of the head are the reference's products, sums and biases:

    (Σ_k a[p,k]·Wl[k,q] + Σ_k x[p,k]·Wr[k,q]) + b[q]          is entry (p, q) of  a · Wl + x · Wr + b,
    Σ_j ((…)[p,j] + b[j]) · w[j,0] + c[0]                       is entry (p, 0) of  (a · Wl + x · Wr + b) · w + c,

  the bias a length-128 vector on the reference's side and a 1 × 128 row on the kernel's, the head's weights a 128 × 1
  column on the reference's side and its transpose, a 1 × 128 row, on the kernel's.  Only the reading of each product at
  an entry as a finite sum is used; no law of arithmetic beyond that.
-/
import proofs.«180501_j20401094656118_1_alg».proof.Proof.Stages
import proofs.«180501_j20401094656118_1_alg».proof.Proof.Layer

noncomputable section

namespace Cert.Sage

open Idealize.ShloMosaic Idealize.ShloMosaic.ValueIdx Cert.ReferenceIdeal Cert.ReferenceIdeal.Gen Cert.ReferenceIdeal.Read

/-- The reference's layer at entry (p, q). -/
theorem layerH_apply (a x : (⟨S100000x128, .f32⟩ : BufTy).Contents (Elt Ideal)) (wl wr : (⟨S128x128, .f32⟩ : BufTy).Contents (Elt Ideal)) (b : (⟨S128, .f32⟩ : BufTy).Contents (Elt Ideal))
    (p : Fin 100000) (q : Fin 128) :
    layerH (F := Ideal) a x wl wr b (ix2 p q)
      = (∑ k : Fin 128, a (ix2 p k) * wl (ix2 k q) + ∑ k : Fin 128, x (ix2 p k) * wr (ix2 k q)) + b (ix1 q) := by
  unfold layerH
  rw [addf_apply, addf_apply, hostSq_apply, hostSq_apply]
  refine congrArg (fun z : EReal => (∑ k : Fin 128, a (ix2 p k) * wl (ix2 k q) + ∑ k : Fin 128, x (ix2 p k) * wr (ix2 k q)) + z) ?_
  show val_main_v30 (F := Ideal) b (ix2 p q) = _
  rw [val_main_v30_apply, val_main_v29_apply]
  refine congrArg b ?_
  funext ax
  match ax with
  | ⟨0, _⟩ => rfl

/-- The kernel's form of a layer, the bias reshaped to a row, is the reference's layer. -/
theorem layer_bridge (a x : (⟨S100000x128, .f32⟩ : BufTy).Contents (Elt Ideal)) (wl wr : (⟨S128x128, .f32⟩ : BufTy).Contents (Elt Ideal)) (b : (⟨S128, .f32⟩ : BufTy).Contents (Elt Ideal))
    (h : S128.ShapeCasts S1x128) :
    layerFn a x wl wr (shapeCast S1x128 b h) = layerH (F := Ideal) a x wl wr b := by
  funext i
  obtain ⟨p, q, rfl⟩ : ∃ (p : Fin 100000) (q : Fin 128), i = ix2 p q := ⟨i 0, i 1, eq_ix2 i⟩
  rw [layerH_apply]
  show (∑ k : Fin 128, a (ix2 p k) * wl (ix2 k q) + ∑ k : Fin 128, x (ix2 p k) * wr (ix2 k q))
      + shapeCast S1x128 b h (ix2 (0 : Fin 1) q) = _
  rw [shapeCast_a_1a_apply]

/-- The kernel's form of the head of a layer — bias rows reshaped, the head's weights transposed to a row — is the
    reference's head of its layer. -/
theorem head_bridge (a x : (⟨S100000x128, .f32⟩ : BufTy).Contents (Elt Ideal)) (wl wr : (⟨S128x128, .f32⟩ : BufTy).Contents (Elt Ideal)) (b : (⟨S128, .f32⟩ : BufTy).Contents (Elt Ideal))
    (w : (⟨S128x1, .f32⟩ : BufTy).Contents (Elt Ideal)) (c : (⟨S1, .f32⟩ : BufTy).Contents (Elt Ideal))
    (h1 : S128.ShapeCasts S1x128) (h2 : S128x1.Transposes [1, 0] S1x128) (h3 : S1.ShapeCasts S1x1) :
    headFn a x wl wr (shapeCast S1x128 b h1) (transpose S1x128 [1, 0] w h2) (shapeCast S1x1 c h3)
      = headH (F := Ideal) (layerH (F := Ideal) a x wl wr b) w c := by
  funext i
  obtain ⟨p, u, rfl⟩ : ∃ (p : Fin 100000) (u : Fin 1), i = ix2 p u := ⟨i 0, i 1, eq_ix2 i⟩
  have hu : u = 0 := Fin.ext (by omega)
  subst hu
  unfold headH
  rw [addf_apply, hostCol_apply]
  show (∑ j : Fin 128, ((∑ k : Fin 128, a (ix2 p k) * wl (ix2 k j) + ∑ k : Fin 128, x (ix2 p k) * wr (ix2 k j))
        + shapeCast S1x128 b h1 (ix2 (0 : Fin 1) j)) * transpose S1x128 [1, 0] w h2 (ix2 (0 : Fin 1) j))
      + shapeCast S1x1 c h3 (ix2 (0 : Fin 1) (0 : Fin 1)) = _
  refine congrArg₂ (fun y z : EReal => y + z) (Finset.sum_congr rfl fun j _ => ?_) ?_
  · rw [layerH_apply, shapeCast_a_1a_apply, transpose_ix2_apply]
  · rw [shapeCast_a_1a_apply]
    show _ = val_main_v53 (F := Ideal) c (ix2 p (0 : Fin 1))
    rw [val_main_v53_apply, val_main_v52_apply]
    refine congrArg c ?_
    funext ax
    match ax with
    | ⟨0, _⟩ => rfl

end Cert.Sage

end
-- ==== Proof.Call0.lean ====
/-
  The first kernel call, block by block: grid point t stages rows 5000·t … 5000·t + 4999 of the aggregated features and of
  the node features, the two weight matrices and the bias row whole, and writes back rows 5000·t … of the result.  What
  it writes back is the layer's entries on those rows, so after the twenty points the result array holds the layer of
  the arrays as the call found them.
-/
import proofs.«180501_j20401094656118_1_alg».proof.Proof.Gen.KernelIdeal.Frame
import proofs.«180501_j20401094656118_1_alg».proof.Proof.Layer

set_option maxRecDepth 16384

noncomputable section

namespace Cert.Sage.Call0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row windows move with the output window along the rows and stay at column
    block 0; the weights and the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows is some point's. -/
theorem idx_onto : ∀ r : Fin 20, ∃ t : Fin cfg0.N, win0_5.index t = ![r.val, 0] :=
  (by decide +kernel : ∀ r : Fin 20, ∃ t : Fin grid0.N, win0_5.index t = ![r.val, 0])

/-- WHAT POINT t WRITES BACK is block t of the layer of the arrays as the call finds them. -/
theorem flushed_eq (c : Dev nD) (t : Fin cfg0.N) :
    (dat0 V c).flushed 5 t = ((cfg0.win 5).blk t).view.read (Elt Ideal)
      (layerFn (V c main_v25) (V c main_v0) (V c main_arg4) (V c main_arg5) (V c main_v26)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e51, -⟩ := idx_facts t
  funext j
  obtain ⟨p, q, rfl⟩ : ∃ (p : Fin 5000) (q : Fin 128), j = ix2 p q := ⟨j 0, j 1, eq_ix2 j⟩
  have hx : (win0 5).xinj (grid0.coords t) (ix2 p q) = ix2 p q := funext fun a => by
    match a with
    | ⟨0, _⟩ => rfl
    | ⟨1, _⟩ => rfl
  show k0_pay1 (F := Ideal) (iblk0 V c 0 t) (iblk0 V c 1 t) (iblk0 V c 2 t) (iblk0 V c 3 t) (iblk0 V c 4 t) ((win0 5).xinj (grid0.coords t) (ix2 p q))
    = layerFn (V c main_v25) (V c main_v0) (V c main_arg4) (V c main_arg5) (V c main_v26) (((cfg0.win 5).blk t).view.emb (ix2 p q))
  rw [hx, pay0_apply]
  have hc : colI (((cfg0.win 5).blk t).view.emb (ix2 p q)) = q := Fin.ext (by
    show win0_5.index t (1 : Fin 2) * 128 + 1 * q.val = q.val
    rw [e51]; omega)
  have ra : ∀ k : Fin 128, iblk0 V c 0 t (ix2 p k) = V c main_v25 (ix2 (rowI (((cfg0.win 5).blk t).view.emb (ix2 p q))) k) := fun k => by
    show V c main_v25 (((cfg0.win 0).blk t).view.emb (ix2 p k)) = _
    refine congrArg (V c main_v25) ?_
    funext a; apply Fin.ext
    match a with
    | ⟨0, _⟩ => show win0_0.index t (0 : Fin 2) * 5000 + 1 * p.val = win0_5.index t (0 : Fin 2) * 5000 + 1 * p.val; rw [e00]
    | ⟨1, _⟩ => show win0_0.index t (1 : Fin 2) * 128 + 1 * k.val = k.val; rw [e01]; omega
  have rx : ∀ k : Fin 128, iblk0 V c 1 t (ix2 p k) = V c main_v0 (ix2 (rowI (((cfg0.win 5).blk t).view.emb (ix2 p q))) k) := fun k => by
    show V c main_v0 (((cfg0.win 1).blk t).view.emb (ix2 p k)) = _
    refine congrArg (V c main_v0) ?_
    funext a; apply Fin.ext
    match a with
    | ⟨0, _⟩ => show win0_1.index t (0 : Fin 2) * 5000 + 1 * p.val = win0_5.index t (0 : Fin 2) * 5000 + 1 * p.val; rw [e10]
    | ⟨1, _⟩ => show win0_1.index t (1 : Fin 2) * 128 + 1 * k.val = k.val; rw [e11]; omega
  have rl : ∀ k : Fin 128, iblk0 V c 2 t (ix2 k q) = V c main_arg4 (ix2 k q) := fun k => by
    show V c main_arg4 (((cfg0.win 2).blk t).view.emb (ix2 k q)) = _
    refine congrArg (V c main_arg4) ?_
    funext a; apply Fin.ext
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  have rr : ∀ k : Fin 128, iblk0 V c 3 t (ix2 k q) = V c main_arg5 (ix2 k q) := fun k => by
    show V c main_arg5 (((cfg0.win 3).blk t).view.emb (ix2 k q)) = _
    refine congrArg (V c main_arg5) ?_
    funext a; apply Fin.ext
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  have rb : iblk0 V c 4 t (ix2 (0 : Fin 1) q) = V c main_v26 (ix2 (0 : Fin 1) q) := by
    show V c main_v26 (((cfg0.win 4).blk t).view.emb (ix2 (0 : Fin 1) q)) = _
    refine congrArg (V c main_v26) ?_
    funext a; apply Fin.ext
    match a with
    | ⟨0, _⟩ => show win0_4.index t (0 : Fin 2) * 1 + 1 * 0 = 0; rw [e40]
    | ⟨1, _⟩ => show win0_4.index t (1 : Fin 2) * 128 + 1 * q.val = q.val; rw [e41]; omega
  unfold layerFn
  rw [hc]
  simp only [ra, rx, rl, rr, rb]

/-- An entry of the result array is in point t's block iff its row is in t's range of rows. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- The twenty blocks of rows cover the result array: row r is in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the call: the layer of the arrays as the call found them. -/
theorem final (c : Dev nD) :
    (dat0 V c).arrAt 5 cfg0.N = layerFn (V c main_v25) (V c main_v0) (V c main_arg4) (V c main_arg5) (V c main_v26) :=
  (dat0 V c).arrAt_eq_of_cover 5 _ (fun t _ => flushed_eq V c t) cover

end Cert.Sage.Call0

end
-- ==== Proof.Call1.lean ====
/-
  The second kernel call, block by block: grid point t stages rows 5000·t … 5000·t + 4999 of the second aggregate and of
  the first layer's output, the second layer's weights and bias row, the head's weights as a row and its bias, all
  whole, and writes back rows 5000·t … of the column of scores.  What it writes back is the head of the second layer on
  those rows, so after the twenty points the column holds the head of the layer of the arrays as the call found them.
-/
import proofs.«180501_j20401094656118_1_alg».proof.Proof.Gen.KernelIdeal.Frame
import proofs.«180501_j20401094656118_1_alg».proof.Proof.Layer

set_option maxRecDepth 16384

noncomputable section

namespace Cert.Sage.Call1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row windows move with the output window along the rows and stay at column
    block 0; every other window stays at block (0, 0). -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 :=
  (by decide +kernel : ∀ t : Fin grid1.N, _)

/-- Every block of rows is some point's. -/
theorem idx_onto : ∀ r : Fin 20, ∃ t : Fin cfg1.N, win1_7.index t = ![r.val, 0] :=
  (by decide +kernel : ∀ r : Fin 20, ∃ t : Fin grid1.N, win1_7.index t = ![r.val, 0])

/-- WHAT POINT t WRITES BACK is block t of the head of the layer of the arrays as the call finds them. -/
theorem flushed_eq (c : Dev nD) (t : Fin cfg1.N) :
    (dat1 V c).flushed 7 t = ((cfg1.win 7).blk t).view.read (Elt Ideal)
      (headFn (V c main_v40) (V c main_v27) (V c main_arg7) (V c main_arg8) (V c main_v41) (V c main_v42) (V c main_v43)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S1x1) hz]
  obtain ⟨e00, e01, e10, e11, e20, e21, e30, e31, e40, e41, e50, e51, e60, e61, e71⟩ := idx_facts t
  funext j
  obtain ⟨p, u, rfl⟩ : ∃ (p : Fin 5000) (u : Fin 1), j = ix2 p u := ⟨j 0, j 1, eq_ix2 j⟩
  have hx : (win1 7).xinj (grid1.coords t) (ix2 p u) = ix2 p u := funext fun a => by
    match a with
    | ⟨0, _⟩ => rfl
    | ⟨1, _⟩ => rfl
  show k1_pay1 (F := Ideal) (iblk1 V c 0 t) (iblk1 V c 1 t) (iblk1 V c 2 t) (iblk1 V c 3 t) (iblk1 V c 4 t) (iblk1 V c 5 t) (iblk1 V c 6 t)
      ((win1 7).xinj (grid1.coords t) (ix2 p u))
    = headFn (V c main_v40) (V c main_v27) (V c main_arg7) (V c main_arg8) (V c main_v41) (V c main_v42) (V c main_v43)
      (((cfg1.win 7).blk t).view.emb (ix2 p u))
  rw [hx, pay1_apply]
  have hu : u.val = 0 := by omega
  have hc : colC (((cfg1.win 7).blk t).view.emb (ix2 p u)) = u := Fin.ext (by
    show win1_7.index t (1 : Fin 2) * 1 + 1 * u.val = u.val
    rw [e71]; omega)
  have ra : ∀ k : Fin 128, iblk1 V c 0 t (ix2 p k) = V c main_v40 (ix2 (rowC (((cfg1.win 7).blk t).view.emb (ix2 p u))) k) := fun k => by
    show V c main_v40 (((cfg1.win 0).blk t).view.emb (ix2 p k)) = _
    refine congrArg (V c main_v40) ?_
    funext a; apply Fin.ext
    match a with
    | ⟨0, _⟩ => show win1_0.index t (0 : Fin 2) * 5000 + 1 * p.val = win1_7.index t (0 : Fin 2) * 5000 + 1 * p.val; rw [e00]
    | ⟨1, _⟩ => show win1_0.index t (1 : Fin 2) * 128 + 1 * k.val = k.val; rw [e01]; omega
  have rx : ∀ k : Fin 128, iblk1 V c 1 t (ix2 p k) = V c main_v27 (ix2 (rowC (((cfg1.win 7).blk t).view.emb (ix2 p u))) k) := fun k => by
    show V c main_v27 (((cfg1.win 1).blk t).view.emb (ix2 p k)) = _
    refine congrArg (V c main_v27) ?_
    funext a; apply Fin.ext
    match a with
    | ⟨0, _⟩ => show win1_1.index t (0 : Fin 2) * 5000 + 1 * p.val = win1_7.index t (0 : Fin 2) * 5000 + 1 * p.val; rw [e10]
    | ⟨1, _⟩ => show win1_1.index t (1 : Fin 2) * 128 + 1 * k.val = k.val; rw [e11]; omega
  have rl : ∀ k j : Fin 128, iblk1 V c 2 t (ix2 k j) = V c main_arg7 (ix2 k j) := fun k j => by
    show V c main_arg7 (((cfg1.win 2).blk t).view.emb (ix2 k j)) = _
    refine congrArg (V c main_arg7) ?_
    funext a; apply Fin.ext
    match a with
    | ⟨0, _⟩ => show win1_2.index t (0 : Fin 2) * 128 + 1 * k.val = k.val; rw [e20]; omega
    | ⟨1, _⟩ => show win1_2.index t (1 : Fin 2) * 128 + 1 * j.val = j.val; rw [e21]; omega
  have rr : ∀ k j : Fin 128, iblk1 V c 3 t (ix2 k j) = V c main_arg8 (ix2 k j) := fun k j => by
    show V c main_arg8 (((cfg1.win 3).blk t).view.emb (ix2 k j)) = _
    refine congrArg (V c main_arg8) ?_
    funext a; apply Fin.ext
    match a with
    | ⟨0, _⟩ => show win1_3.index t (0 : Fin 2) * 128 + 1 * k.val = k.val; rw [e30]; omega
    | ⟨1, _⟩ => show win1_3.index t (1 : Fin 2) * 128 + 1 * j.val = j.val; rw [e31]; omega
  have rb : ∀ j : Fin 128, iblk1 V c 4 t (ix2 (0 : Fin 1) j) = V c main_v41 (ix2 (0 : Fin 1) j) := fun j => by
    show V c main_v41 (((cfg1.win 4).blk t).view.emb (ix2 (0 : Fin 1) j)) = _
    refine congrArg (V c main_v41) ?_
    funext a; apply Fin.ext
    match a with
    | ⟨0, _⟩ => show win1_4.index t (0 : Fin 2) * 1 + 1 * 0 = 0; rw [e40]
    | ⟨1, _⟩ => show win1_4.index t (1 : Fin 2) * 128 + 1 * j.val = j.val; rw [e41]; omega
  have ro : ∀ j : Fin 128, iblk1 V c 5 t (ix2 (0 : Fin 1) j) = V c main_v42 (ix2 (0 : Fin 1) j) := fun j => by
    show V c main_v42 (((cfg1.win 5).blk t).view.emb (ix2 (0 : Fin 1) j)) = _
    refine congrArg (V c main_v42) ?_
    funext a; apply Fin.ext
    match a with
    | ⟨0, _⟩ => show win1_5.index t (0 : Fin 2) * 1 + 1 * 0 = 0; rw [e50]
    | ⟨1, _⟩ => show win1_5.index t (1 : Fin 2) * 128 + 1 * j.val = j.val; rw [e51]; omega
  have rc : iblk1 V c 6 t (ix2 (0 : Fin 1) u) = V c main_v43 (ix2 (0 : Fin 1) u) := by
    show V c main_v43 (((cfg1.win 6).blk t).view.emb (ix2 (0 : Fin 1) u)) = _
    refine congrArg (V c main_v43) ?_
    funext a; apply Fin.ext
    match a with
    | ⟨0, _⟩ => show win1_6.index t (0 : Fin 2) * 1 + 1 * 0 = 0; rw [e60]
    | ⟨1, _⟩ => show win1_6.index t (1 : Fin 2) * 1 + 1 * u.val = u.val; rw [e61]; omega
  unfold headFn
  rw [hc]
  simp only [ra, rx, rl, rr, rb, ro, rc]

/-- An entry of the column is in point t's block iff its row is in t's range of rows. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v44).slice (win1_7.rect t)).set ↔ _
  rw [View.set_slice_whole, Rect.mem_set_unit]
  exact Iff.rfl

/-- The twenty blocks of rows cover the column: row r is in the block of point r / 5000. -/
theorem cover (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- THE COLUMN OF SCORES after the call: the head of the layer of the arrays as the call found them. -/
theorem final (c : Dev nD) :
    (dat1 V c).arrAt 7 cfg1.N
      = headFn (V c main_v40) (V c main_v27) (V c main_arg7) (V c main_arg8) (V c main_v41) (V c main_v42) (V c main_v43) :=
  (dat1 V c).arrAt_eq_of_cover 7 _ (fun t _ => flushed_eq V c t) cover

end Cert.Sage.Call1

end
-- ==== Proof.HostK.lean ====
/-
  The contents of the buffers the two kernel calls read and of the result buffer, through the host stretches of the
  program: before the first call the host builds the concatenated embeddings X₀ and their mean over incoming edges;
  between the calls it builds the mean of the first call's output; after the second call it gathers the items' scores
  and applies the softmax.  Each stretch applies to what it finds the same operations as the reference, so the result
  buffer ends at the reference's result stage of the argument arrays.
-/
import proofs.«180501_j20401094656118_1_alg».proof.Proof.Gen.KernelIdeal.Frame
import proofs.«180501_j20401094656118_1_alg».proof.Proof.Stages
import proofs.«180501_j20401094656118_1_alg».proof.Proof.Bridge
import proofs.«180501_j20401094656118_1_alg».proof.Proof.Call0
import proofs.«180501_j20401094656118_1_alg».proof.Proof.Call1
import Idealize.ShloMosaic.Lib.StableHlo.Run

set_option maxRecDepth 16384
set_option maxHeartbeats 4000000

noncomputable section

namespace Cert.Sage.Host

open Cert.KernelIdeal Cert.KernelIdeal.Gen
open Idealize.ShloMosaic Idealize.ShloMosaic.TcCoe Idealize.ShloMosaic.StableHlo
open Idealize.SL Idealize.SL.Sem
open Cert.ReferenceIdeal.Read (val_main_v0 val_main_v2 val_main_v4 val_main_v12 val_main_v75)

variable (m : (ℓ : Loc nD τ sig) → Buf (Elt Ideal) ℓ) (ρ : Dev nD → PrngReg)

/-! ## Before the first call -/

theorem W1_x0 (c : Dev nD) : W1 m ρ c (Proc.devRef .tc main_v0) = val_main_v0 (F := Ideal) (m ((c : Thread nD τ).loc main_arg2)) (m ((c : Thread nD τ).loc main_arg3)) := by
  dsimp only [W1, hostOps0]; after_results_simp; rfl
theorem W1_agg (c : Dev nD) : W1 m ρ c (Proc.devRef .tc main_v25)
    = aggOf (F := Ideal) (val_main_v0 (F := Ideal) (m ((c : Thread nD τ).loc main_arg2)) (m ((c : Thread nD τ).loc main_arg3))) (m ((c : Thread nD τ).loc main_arg1)) := by
  dsimp only [W1, hostOps0]; after_results_simp; rfl
theorem W1_src (c : Dev nD) : W1 m ρ c (Proc.devRef .tc main_v2) = val_main_v2 (F := Ideal) (m ((c : Thread nD τ).loc main_arg1)) := by
  dsimp only [W1, hostOps0]; after_results_simp; rfl
theorem W1_dst (c : Dev nD) : W1 m ρ c (Proc.devRef .tc main_v4) = val_main_v4 (F := Ideal) (m ((c : Thread nD τ).loc main_arg1)) := by
  dsimp only [W1, hostOps0]; after_results_simp; rfl
theorem W1_inv (c : Dev nD) : W1 m ρ c (Proc.devRef .tc main_v12) = val_main_v12 (F := Ideal) (m ((c : Thread nD τ).loc main_arg1)) := by
  dsimp only [W1, hostOps0]; after_results_simp; rfl
theorem W1_b1 (c : Dev nD) : W1 m ρ c (Proc.devRef .tc main_v26) = shapeCast S1x128 (m ((c : Thread nD τ).loc main_arg6)) shapeCasts_S128_S1x128 := by
  dsimp only [W1, hostOps0]; after_results_simp; rfl
theorem W1_arg0 (c : Dev nD) : W1 m ρ c (Proc.devRef .tc main_arg0) = (m ((c : Thread nD τ).loc main_arg0)) := by
  dsimp only [W1, hostOps0]; after_results_simp
theorem W1_arg4 (c : Dev nD) : W1 m ρ c (Proc.devRef .tc main_arg4) = (m ((c : Thread nD τ).loc main_arg4)) := by
  dsimp only [W1, hostOps0]; after_results_simp
theorem W1_arg5 (c : Dev nD) : W1 m ρ c (Proc.devRef .tc main_arg5) = (m ((c : Thread nD τ).loc main_arg5)) := by
  dsimp only [W1, hostOps0]; after_results_simp
theorem W1_arg7 (c : Dev nD) : W1 m ρ c (Proc.devRef .tc main_arg7) = (m ((c : Thread nD τ).loc main_arg7)) := by
  dsimp only [W1, hostOps0]; after_results_simp
theorem W1_arg8 (c : Dev nD) : W1 m ρ c (Proc.devRef .tc main_arg8) = (m ((c : Thread nD τ).loc main_arg8)) := by
  dsimp only [W1, hostOps0]; after_results_simp
theorem W1_arg9 (c : Dev nD) : W1 m ρ c (Proc.devRef .tc main_arg9) = (m ((c : Thread nD τ).loc main_arg9)) := by
  dsimp only [W1, hostOps0]; after_results_simp
theorem W1_arg10 (c : Dev nD) : W1 m ρ c (Proc.devRef .tc main_arg10) = (m ((c : Thread nD τ).loc main_arg10)) := by
  dsimp only [W1, hostOps0]; after_results_simp
theorem W1_arg11 (c : Dev nD) : W1 m ρ c (Proc.devRef .tc main_arg11) = (m ((c : Thread nD τ).loc main_arg11)) := by
  dsimp only [W1, hostOps0]; after_results_simp
theorem W1_arg12 (c : Dev nD) : W1 m ρ c (Proc.devRef .tc main_arg12) = (m ((c : Thread nD τ).loc main_arg12)) := by
  dsimp only [W1, hostOps0]; after_results_simp

/-! ## The first call and the stretch after it -/

/-- The first call leaves the reference's first layer in its result array. -/
theorem W2_x1 (c : Dev nD) : W2 m ρ c (Proc.devRef .tc main_v27) = (layerH (F := Ideal) (aggOf (F := Ideal) (val_main_v0 (F := Ideal) (m ((c : Thread nD τ).loc main_arg2)) (m ((c : Thread nD τ).loc main_arg3))) (m ((c : Thread nD τ).loc main_arg1))) (val_main_v0 (F := Ideal) (m ((c : Thread nD τ).loc main_arg2)) (m ((c : Thread nD τ).loc main_arg3))) (m ((c : Thread nD τ).loc main_arg4)) (m ((c : Thread nD τ).loc main_arg5)) (m ((c : Thread nD τ).loc main_arg6))) := by
  refine (W2_arr m ρ c 5).trans ?_
  rw [Call0.final]
  show layerFn (W1 m ρ c (Proc.devRef .tc main_v25)) (W1 m ρ c (Proc.devRef .tc main_v0)) (W1 m ρ c (Proc.devRef .tc main_arg4))
    (W1 m ρ c (Proc.devRef .tc main_arg5)) (W1 m ρ c (Proc.devRef .tc main_v26)) = _
  rw [W1_agg, W1_x0, W1_arg4, W1_arg5, W1_b1]
  exact layer_bridge _ _ _ _ _ _

theorem W2_src (c : Dev nD) : W2 m ρ c (Proc.devRef .tc main_v2) = val_main_v2 (F := Ideal) (m ((c : Thread nD τ).loc main_arg1)) :=
  (W2_of_ne m ρ c main_v2 (by decide)).trans (W1_src m ρ c)
theorem W2_dst (c : Dev nD) : W2 m ρ c (Proc.devRef .tc main_v4) = val_main_v4 (F := Ideal) (m ((c : Thread nD τ).loc main_arg1)) :=
  (W2_of_ne m ρ c main_v4 (by decide)).trans (W1_dst m ρ c)
theorem W2_inv (c : Dev nD) : W2 m ρ c (Proc.devRef .tc main_v12) = val_main_v12 (F := Ideal) (m ((c : Thread nD τ).loc main_arg1)) :=
  (W2_of_ne m ρ c main_v12 (by decide)).trans (W1_inv m ρ c)
theorem W2_arg0 (c : Dev nD) : W2 m ρ c (Proc.devRef .tc main_arg0) = (m ((c : Thread nD τ).loc main_arg0)) :=
  (W2_of_ne m ρ c main_arg0 (by decide)).trans (W1_arg0 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-- Between the calls the host takes the mean over incoming edges of the first call's output. -/
theorem W3_agg (c : Dev nD) : W3 m ρ c (Proc.devRef .tc main_v40)
    = aggOf (F := Ideal) (W2 m ρ c (Proc.devRef .tc main_v27)) (m ((c : Thread nD τ).loc main_arg1)) := by
  dsimp only [W3, hostOps1]; after_results_simp
  rw [W2_src, W2_dst, W2_inv]
  rfl
theorem W3_x1 (c : Dev nD) : W3 m ρ c (Proc.devRef .tc main_v27) = W2 m ρ c (Proc.devRef .tc main_v27) := by
  dsimp only [W3, hostOps1]; after_results_simp
theorem W3_b2 (c : Dev nD) : W3 m ρ c (Proc.devRef .tc main_v41) = shapeCast S1x128 (m ((c : Thread nD τ).loc main_arg9)) shapeCasts_S128_S1x128 := by
  dsimp only [W3, hostOps1]; after_results_simp
  rw [W2_arg9]; try rfl
theorem W3_wo (c : Dev nD) : W3 m ρ c (Proc.devRef .tc main_v42) = transpose S1x128 [1, 0] (m ((c : Thread nD τ).loc main_arg10)) transposes_S128x1_S1x128_1_0 := by
  dsimp only [W3, hostOps1]; after_results_simp
  rw [W2_arg10]; try rfl
theorem W3_bo (c : Dev nD) : W3 m ρ c (Proc.devRef .tc main_v43) = shapeCast S1x1 (m ((c : Thread nD τ).loc main_arg11)) shapeCasts_S1_S1x1 := by
  dsimp only [W3, hostOps1]; after_results_simp
  rw [W2_arg11]; try rfl
theorem W3_arg0 (c : Dev nD) : W3 m ρ c (Proc.devRef .tc main_arg0) = (m ((c : Thread nD τ).loc main_arg0)) := by
  dsimp only [W3, hostOps1]; after_results_simp
  exact W2_arg0 m ρ c
theorem W3_arg7 (c : Dev nD) : W3 m ρ c (Proc.devRef .tc main_arg7) = (m ((c : Thread nD τ).loc main_arg7)) := by
  dsimp only [W3, hostOps1]; after_results_simp
  exact W2_arg7 m ρ c
theorem W3_arg8 (c : Dev nD) : W3 m ρ c (Proc.devRef .tc main_arg8) = (m ((c : Thread nD τ).loc main_arg8)) := by
  dsimp only [W3, hostOps1]; after_results_simp
  exact W2_arg8 m ρ c
theorem W3_arg12 (c : Dev nD) : W3 m ρ c (Proc.devRef .tc main_arg12) = (m ((c : Thread nD τ).loc main_arg12)) := by
  dsimp only [W3, hostOps1]; after_results_simp
  exact W2_arg12 m ρ c

/-! ## The second call and the stretch after it -/

/-- The second call leaves the reference's scores of all nodes in its result column. -/
theorem W4_scores (c : Dev nD) : W4 m ρ c (Proc.devRef .tc main_v44)
    = headH (F := Ideal) (layerH (F := Ideal) (aggOf (F := Ideal) (layerH (F := Ideal) (aggOf (F := Ideal) (val_main_v0 (F := Ideal) (m ((c : Thread nD τ).loc main_arg2)) (m ((c : Thread nD τ).loc main_arg3))) (m ((c : Thread nD τ).loc main_arg1))) (val_main_v0 (F := Ideal) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg1))) (layerH (F := Ideal) (aggOf (F := Ideal) (val_main_v0 (F := Ideal) (m ((c : Thread nD τ).loc main_arg2)) (m ((c : Thread nD τ).loc main_arg3))) (m ((c : Thread nD τ).loc main_arg1))) (val_main_v0 (F := Ideal) (m ((c : Thread nD τ).loc main_arg2)) (m ((c : Thread nD τ).loc main_arg3))) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9))) (m ((c : Thread nD τ).loc main_arg10)) (m ((c : Thread nD τ).loc main_arg11)) := by
  refine (W4_arr m ρ c 7).trans ?_
  rw [Call1.final]
  show headFn (W3 m ρ c (Proc.devRef .tc main_v40)) (W3 m ρ c (Proc.devRef .tc main_v27)) (W3 m ρ c (Proc.devRef .tc main_arg7))
    (W3 m ρ c (Proc.devRef .tc main_arg8)) (W3 m ρ c (Proc.devRef .tc main_v41)) (W3 m ρ c (Proc.devRef .tc main_v42))
    (W3 m ρ c (Proc.devRef .tc main_v43)) = _
  rw [W3_agg, W3_x1, W2_x1, W3_arg7, W3_arg8, W3_b2, W3_wo, W3_bo]
  exact head_bridge _ _ _ _ _ _ _ _ _ _

theorem W4_arg0 (c : Dev nD) : W4 m ρ c (Proc.devRef .tc main_arg0) = (m ((c : Thread nD τ).loc main_arg0)) :=
  (W4_of_ne m ρ c main_arg0 (by decide)).trans (W3_arg0 m ρ c)
theorem W4_arg12 (c : Dev nD) : W4 m ρ c (Proc.devRef .tc main_arg12) = (m ((c : Thread nD τ).loc main_arg12)) :=
  (W4_of_ne m ρ c main_arg12 (by decide)).trans (W3_arg12 m ρ c)

/-- After the second call the host gathers the items' scores and applies the softmax and the prior. -/
theorem W7_out (c : Dev nD) : W7 m ρ c (Proc.devRef .tc main_v65)
    = tailOf (F := Ideal) (W4 m ρ c (Proc.devRef .tc main_v44)) (m ((c : Thread nD τ).loc main_arg0)) (m ((c : Thread nD τ).loc main_arg12)) := by
  dsimp only [W7, W6, W5, hostOps2_2, hostOps2_1, hostOps2]; after_results_simp
  rw [W4_arg0, W4_arg12]
  rfl

/-- THE RESULT BUFFER ends at the reference's result stage of the argument arrays. -/
theorem result_eq (c : Dev nD) : W7 m ρ c (Proc.devRef .tc main_v65)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W7_out, W4_scores, tail_eq, head_eq, layer2_eq, agg2_eq, layer1_eq, agg1_eq]

end Cert.Sage.Host

end
-- ==== Proof.lean ====
/-
  A two-layer mean-aggregation graph network with a linear head and a softmax over the item nodes, against its plain
  reference, on the extended reals.

  Both programs build the concatenated embeddings X₀, the in-degrees and, twice, the mean over incoming edges of a
  node-feature matrix, with the same host operations.  The reference computes each layer, a · Wl + x · Wr + b, and the
  head, y · w + c, with matrix products on the host.  The kernel computes the first layer in one call and the second
  layer fused with the head in another, each over twenty blocks of 5000 rows: on a block the two products are sums over
  the 128 columns (the rounding of the operands to bf16 before the product is the identity on exact values), and the
  head is the lane sum of the layer's row times the head's weights laid out as a row.  Entry by entry these are the
  reference's sums, so the two calls leave the reference's first layer and the reference's scores in their result
  arrays; the host stretches around the calls are the reference's own operations applied to those arrays, and the
  result buffers agree.  No step needs the inputs to be finite: only the reading of a product as a finite sum and
  0 + s = s are used.

  The three frames: the kernel's two are the generated frame certificates; the reference's is its generated run with
  the result forgotten.  The idealization rewrote nothing, so there is nothing to preserve.
-/
import proofs.«180501_j20401094656118_1_alg».proof.Defs
import proofs.«180501_j20401094656118_1_alg».proof.Proof.Gen.Kernel
import proofs.«180501_j20401094656118_1_alg».proof.Proof.Gen.Kernel.Skeleton
import proofs.«180501_j20401094656118_1_alg».proof.Proof.Gen.Kernel.Launch
import proofs.«180501_j20401094656118_1_alg».proof.Proof.Gen.Kernel.Points
import proofs.«180501_j20401094656118_1_alg».proof.Proof.Gen.Kernel.Frame
import proofs.«180501_j20401094656118_1_alg».proof.Proof.Gen.KernelIdeal
import proofs.«180501_j20401094656118_1_alg».proof.Proof.Gen.KernelIdeal.Skeleton
import proofs.«180501_j20401094656118_1_alg».proof.Proof.Gen.KernelIdeal.Launch
import proofs.«180501_j20401094656118_1_alg».proof.Proof.Gen.KernelIdeal.Points
import proofs.«180501_j20401094656118_1_alg».proof.Proof.Gen.KernelIdeal.Frame
import proofs.«180501_j20401094656118_1_alg».proof.Proof.Gen.ReferenceIdeal
import proofs.«180501_j20401094656118_1_alg».proof.Proof.Gen.Pre_finite_inputs
import proofs.«180501_j20401094656118_1_alg».proof.Proof.Gen.ReferenceIdeal.Run
import proofs.«180501_j20401094656118_1_alg».proof.Proof.Gen.ReferenceIdeal.Read
import proofs.«180501_j20401094656118_1_alg».proof.Proof.KernelRun
import proofs.«180501_j20401094656118_1_alg».proof.Proof.HostK
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's result stage of the (agreeing) argument arrays. -/
theorem algebraic : Cert.algebraic_KernelIdeal_ReferenceIdeal := by
  intro m ρ m' ρ' _ hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Sage.Host.result_eq m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v75_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
